-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S2x8x128 : Shape := ⟨3, ![2, 8, 128]⟩
abbrev S8192x128 : Shape := ⟨2, ![8192, 128]⟩
abbrev S1x8x128 : Shape := ⟨3, ![1, 8, 128]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 54
  | .vmem => 8
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i1⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S1x128, .i32⟩
  | .hbm, ⟨25, _⟩ => ⟨S_, .i32⟩
  | .hbm, ⟨26, _⟩ => ⟨S_, .i32⟩
  | .hbm, ⟨27, _⟩ => ⟨S1x128, .i32⟩
  | .hbm, ⟨28, _⟩ => ⟨S1x128, .i32⟩
  | .hbm, ⟨29, _⟩ => ⟨S1x128, .i32⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S1x128, .i32⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i1⟩
  | .hbm, ⟨38, _⟩ => ⟨S1x128, .i1⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x128, .f32⟩
  | .hbm, ⟨47, _⟩ => ⟨S2x8x128, .f32⟩
  | .hbm, ⟨48, _⟩ => ⟨S2x1x1, .f32⟩
  | .hbm, ⟨49, _⟩ => ⟨S2, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S1x8x128, .f32⟩
  | .local _ .vmem, ⟨6, _⟩ => ⟨S1x8x128, .f32⟩
  | .local _ .vmem, ⟨7, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S33554432_S262144x128 : S33554432.ShapeCasts S262144x128
  bcast_S128_S128x1_0 : S128.BroadcastsInDim S128x1 (![0] : Fin 1 → Fin S128x1.rank)
  bcast_S_S128x1 : S_.BroadcastsInDim S128x1 (![] : Fin 0 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S33554432 : Shape := ⟨1, ![33554432]⟩
abbrev S8388608x4 : Shape := ⟨2, ![8388608, 4]⟩
abbrev S_ : Shape := ⟨0, ![]⟩
abbrev S8388608 : Shape := ⟨1, ![8388608]⟩

abbrev nBuf : Space → Nat
  | .hbm => 15
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S8388608x4, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S_, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  shapeCasts_S33554432_S8388608x4 : S33554432.ShapeCasts S8388608x4
  reducesTo_S8388608x4_S8388608_d1 : S8388608x4.ReducesTo [1] S8388608
  h_S_ : 0 < S_.numel
  bcast_S_S8388608 : S_.BroadcastsInDim S8388608 (![] : Fin 0 → Fin S8388608.rank)
  reducesTo_S8388608_S_d0 : S8388608.ReducesTo [0] S_

variable [Facts₀]

class Facts : Prop extends Facts₀ where

variable [Facts]
-- ==== Proof.Spec.lean ====
/-
  The mean geodesic deviation, as one function of the two input arrays.

  Both programs multiply the inputs position by position, sum each run of four consecutive products (one
  quaternion's inner product `s`), and average `|s·s − 1|` over the 8 388 608 runs.  The reference does exactly
  that.  The kernel views the products as 262 144 rows of 128, multiplies each row by the 128 × 128 matrix whose
  entry `(k, l)` is one when `k` and `l` lie in the same run of four and zero otherwise — so every run's inner
  product appears four times in the row —, sums `|·² − 1|` over 8192-row tiles, accumulates sixteen tiles on each
  of two cores, adds the two totals and divides by four times the number of runs.
-/
import Idealize.ShloMosaic.PureOps.Ideal
import Idealize.ShloMosaic.PureOps.Ideal.Laws
import Idealize.ShloMosaic.Lib.ValueIdx

noncomputable section

namespace Cert.Geodesic

open Idealize.ShloMosaic

/-- An input array of 33 554 432 extended reals read at a natural position (zero past the end). -/
def flat (x : (⟨1, ![33554432]⟩ : Shape).Idx → EReal) (n : ℕ) : EReal :=
  if h : n < 33554432 then x (ValueIdx.ix1 ⟨n, h⟩) else 0

/-- The product of the two inputs at a position. -/
def prodAt (x y : (⟨1, ![33554432]⟩ : Shape).Idx → EReal) (n : ℕ) : EReal := flat x n * flat y n

/-- The word both programs write for the float zero, and for the float one. -/
abbrev zeroW : EReal := Ideal.ofBits .f32 0x00000000#32
abbrev oneW : EReal := Ideal.ofBits .f32 0x3F800000#32

/-- `|z·z − 1|`, the absolute value being `max a (−a)`. -/
def dev (z : EReal) : EReal := max (z * z - oneW) (-(z * z - oneW))

/-- The inner product of run `s`: the four products at positions `4s … 4s+3`. -/
def seg (p : ℕ → EReal) (s : ℕ) : EReal := ∑ q ∈ Finset.range 4, p (4 * s + q)

/-- The grouping matrix: one where `k` and `l` lie in the same run of four. -/
def gmat (k l : ℕ) : EReal := if k / 4 = l / 4 then 1 else 0

/-- Row `row` of the products times column `l` of the grouping matrix. -/
def rowDot (p : ℕ → EReal) (row l : ℕ) : EReal := ∑ k ∈ Finset.range 128, p (128 * row + k) * gmat k l

/-- What one 8192-row tile contributes: the deviations of all its 8192 × 128 matrix-product entries. -/
def tileSum (p : ℕ → EReal) (b : ℕ) : EReal :=
  ∑ r ∈ Finset.range 8192, ∑ l ∈ Finset.range 128, dev (rowDot p (8192 * b + r) l)

/-- The accumulator of core `c` after its tile `i`: reset to zero before the first, then one tile added at a time. -/
def acc (p : ℕ → EReal) (c : ℕ) : ℕ → EReal
  | 0 => zeroW + tileSum p (16 * c)
  | i + 1 => acc p c i + tileSum p (16 * c + (i + 1))

/-- The kernel's result. -/
def kernelVal (p : ℕ → EReal) : EReal :=
  Ideal.div (zeroW + (acc p 0 15 + acc p 1 15)) (Ideal.ofBits .f32 0x4C000000#32)

/-- The reference's result. -/
def refVal (p : ℕ → EReal) : EReal :=
  Ideal.div (zeroW + ∑ s ∈ Finset.range 8388608, dev (zeroW + seg p s)) (Ideal.ofBits .f32 0x4B000000#32)

end Cert.Geodesic

end
-- ==== Proof.SpecLaw.lean ====
/-
  The two results are one extended real.

  Write `D s = |seg s · seg s − 1|` for the deviation of run `s`.  A row of the products times the grouping matrix
  repeats each of the row's 32 inner products four times, so a tile, a core's sixteen tiles and the two cores together
  sum `D s + D s + D s + D s` over consecutive runs: the kernel's total is `4 · ∑ D s` over all 8 388 608 runs, and
  `(4 · T) / 2²⁵ = T / 2²³` for every extended real `T`, because multiplication of extended reals is commutative and
  associative and `n • x = n · x` holds for every `x`.  Nothing is assumed finite.
-/
import proofs.«115364_j59270548684945_1_alg».proof.Proof.Spec

noncomputable section

namespace Cert.Geodesic

open Idealize.ShloMosaic

namespace SpecLaw

/-! ## Sums over `a · b` consecutive positions -/

/-- A sum over `a · b` consecutive positions is the sum, over `a` blocks, of each block's `b` terms. -/
theorem sum_range_mul {M : Type*} [AddCommMonoid M] (f : ℕ → M) (a b : ℕ) :
    ∑ k ∈ Finset.range (a * b), f k = ∑ i ∈ Finset.range a, ∑ j ∈ Finset.range b, f (b * i + j) := by
  induction a with
  | zero => simp
  | succ a ih => rw [add_one_mul, Finset.sum_range_add, Finset.sum_range_succ, ih, Nat.mul_comm a b]

/-- The same with the length given as a product. -/
theorem sum_range_of_eq_mul {M : Type*} [AddCommMonoid M] (f : ℕ → M) {n a b : ℕ} (h : n = a * b) :
    ∑ k ∈ Finset.range n, f k = ∑ i ∈ Finset.range a, ∑ j ∈ Finset.range b, f (b * i + j) := by
  subst h; exact sum_range_mul f a b

/-! ## One row times the grouping matrix -/

/-- Between positions written as run and offset, the grouping matrix is one exactly when the runs agree. -/
theorem gmat_run (g q g' q' : ℕ) (hq : q < 4) (hq' : q' < 4) :
    gmat (4 * g + q) (4 * g' + q') = if g = g' then 1 else 0 := by
  unfold gmat
  have h1 : (4 * g + q) / 4 = g := by omega
  have h2 : (4 * g' + q') / 4 = g' := by omega
  rw [h1, h2]

/-- Column `4g' + q'` of a row's product with the grouping matrix is the inner product of the row's run `g'`:
    the terms of the other runs are multiplied by zero, those of run `g'` by one. -/
theorem rowDot_run (p : ℕ → EReal) (row g' q' : ℕ) (hg' : g' < 32) (hq' : q' < 4) :
    rowDot p row (4 * g' + q') = seg p (32 * row + g') := by
  unfold rowDot seg
  rw [sum_range_of_eq_mul _ (show (128 : ℕ) = 32 * 4 by norm_num)]
  have hrun : ∀ i ∈ Finset.range 32,
      ∑ j ∈ Finset.range 4, p (128 * row + (4 * i + j)) * gmat (4 * i + j) (4 * g' + q')
        = if i = g' then ∑ j ∈ Finset.range 4, p (128 * row + (4 * i + j)) else 0 := by
    intro i _
    split_ifs with h
    · refine Finset.sum_congr rfl fun j hj => ?_
      rw [gmat_run _ _ _ _ (Finset.mem_range.mp hj) hq', if_pos h, mul_one]
    · refine Finset.sum_eq_zero fun j hj => ?_
      rw [gmat_run _ _ _ _ (Finset.mem_range.mp hj) hq', if_neg h, mul_zero]
  rw [Finset.sum_congr rfl hrun, Finset.sum_ite_eq', if_pos (Finset.mem_range.mpr hg')]
  refine Finset.sum_congr rfl fun j _ => ?_
  rw [show 128 * row + (4 * g' + j) = 4 * (32 * row + g') + j by ring]

/-- The deviation of run `s`, four times: what the kernel adds for each run. -/
def four (p : ℕ → EReal) (s : ℕ) : EReal := ∑ _q ∈ Finset.range 4, dev (seg p s)

/-- A row's 128 deviations are those of its 32 runs, each four times. -/
theorem row_sum (p : ℕ → EReal) (row : ℕ) :
    ∑ l ∈ Finset.range 128, dev (rowDot p row l) = ∑ g ∈ Finset.range 32, four p (32 * row + g) := by
  rw [sum_range_of_eq_mul _ (show (128 : ℕ) = 32 * 4 by norm_num)]
  refine Finset.sum_congr rfl fun g hg => ?_
  unfold four
  refine Finset.sum_congr rfl fun q hq => ?_
  rw [rowDot_run p row g q (Finset.mem_range.mp hg) (Finset.mem_range.mp hq)]

/-! ## Tiles, cores, and the whole array -/

/-- A tile of 8192 rows covers 262 144 consecutive runs. -/
theorem tileSum_eq (p : ℕ → EReal) (b : ℕ) :
    tileSum p b = ∑ t ∈ Finset.range 262144, four p (262144 * b + t) := by
  unfold tileSum
  rw [sum_range_of_eq_mul _ (show (262144 : ℕ) = 8192 * 32 by norm_num)]
  refine Finset.sum_congr rfl fun r _ => ?_
  rw [row_sum]
  refine Finset.sum_congr rfl fun g _ => ?_
  rw [show 32 * (8192 * b + r) + g = 262144 * b + (32 * r + g) by ring]

/-- The accumulator after tile `i` is the sum of the tiles so far: the reset word is zero. -/
theorem acc_eq (p : ℕ → EReal) (c : ℕ) :
    ∀ i : ℕ, acc p c i = ∑ j ∈ Finset.range (i + 1), tileSum p (16 * c + j)
  | 0 => by
    show Ideal.ofBits .f32 0x00000000#32 + tileSum p (16 * c) = _
    rw [Finset.sum_range_one, Ideal.ofBits_zero_f32, zero_add, Nat.add_zero]
  | i + 1 => by
    show acc p c i + tileSum p (16 * c + (i + 1)) = _
    rw [acc_eq p c i, Finset.sum_range_succ _ (i + 1)]

/-- A core's sixteen tiles cover 4 194 304 consecutive runs. -/
theorem core_total (p : ℕ → EReal) (c : ℕ) :
    acc p c 15 = ∑ u ∈ Finset.range 4194304, four p (4194304 * c + u) := by
  rw [acc_eq, sum_range_of_eq_mul _ (show (4194304 : ℕ) = (15 + 1) * 262144 by norm_num)]
  refine Finset.sum_congr rfl fun i _ => ?_
  rw [tileSum_eq]
  refine Finset.sum_congr rfl fun t _ => ?_
  rw [show 262144 * (16 * c + i) + t = 4194304 * c + (262144 * i + t) by ring]

/-- The two cores cover all 8 388 608 runs. -/
theorem kernel_total (p : ℕ → EReal) :
    acc p 0 15 + acc p 1 15 = ∑ s ∈ Finset.range 8388608, four p s := by
  rw [core_total, core_total,
    show (8388608 : ℕ) = 4194304 + 4194304 by norm_num, Finset.sum_range_add]
  simp only [Nat.mul_zero, Nat.zero_add, Nat.mul_one]

/-- Summing each run's deviation four times is four times the sum: exchange the two sums, and a constant summed
    `n` times is `n` times it, for every extended real. -/
theorem four_total (p : ℕ → EReal) (n : ℕ) :
    ∑ s ∈ Finset.range n, four p s = (4 : EReal) * ∑ s ∈ Finset.range n, dev (seg p s) := by
  unfold four
  rw [Finset.sum_comm, Finset.sum_const, Finset.card_range, EReal.nsmul_eq_mul]
  norm_cast

/-! ## The two divisors -/

/-- The kernel divides by `2²⁵`, four times the number of runs. -/
theorem divisor_kernel : Ideal.ofBits .f32 0x4C000000#32 = ((33554432 : ℝ) : EReal) := by
  simp [Ideal.ofBits, Ideal.ieee, -EReal.coe_mul] <;> norm_num

/-- The reference divides by `2²³`, the number of runs. -/
theorem divisor_reference : Ideal.ofBits .f32 0x4B000000#32 = ((8388608 : ℝ) : EReal) := by
  simp [Ideal.ofBits, Ideal.ieee, -EReal.coe_mul] <;> norm_num

end SpecLaw

open SpecLaw

/-! ## The two results -/

theorem kernelVal_eq_refVal (p : ℕ → EReal) : kernelVal p = refVal p := by
  unfold kernelVal refVal
  rw [divisor_kernel, divisor_reference, Ideal.div_coe (by norm_num), Ideal.div_coe (by norm_num)]
  simp only [Ideal.ofBits_zero_f32, zero_add]
  rw [kernel_total, four_total, mul_comm (4 : EReal), mul_assoc]
  congr 1
  rw [show (4 : EReal) = ((4 : ℝ) : EReal) by norm_cast, ← EReal.coe_mul]
  congr 1
  norm_num

end Cert.Geodesic

end
-- ==== Proof.RefValue.lean ====
/-
  The reference's result, stage by stage, is the mean deviation over the runs of four.

  Read from the last operation inwards: the quotient of a total by the number of runs; the total is the zero word
  plus the sum, over the 8 388 608 runs, of the absolute deviation of each run; a run's deviation is
  `max (z·z − 1) (−(z·z − 1))` at `z` the zero word plus the run's four products; and the product at run `j`,
  offset `k`, is the product of the two inputs at position `4·j + k` of the flat arrays. Two sums change their
  index set on the way: the runs, from rank-1 indices to the naturals below 8 388 608, and the offsets inside a run,
  from `Fin 4` to the naturals below 4. Neither sum is ever evaluated.
-/
import proofs.«115364_j59270548684945_1_alg».proof.Proof.Spec
import proofs.«115364_j59270548684945_1_alg».proof.Proof.Gen.ReferenceIdeal.Run
import proofs.«115364_j59270548684945_1_alg».proof.Proof.Gen.ReferenceIdeal.Read
import Idealize.ShloMosaic.Lib.ValueIdx
import Mathlib.Algebra.BigOperators.Fin

noncomputable section

namespace Cert.ReferenceIdeal.RefValue

open Idealize.ShloMosaic Cert.ReferenceIdeal Cert.ReferenceIdeal.Gen Cert.Geodesic ValueIdx

/-- A rank-1 index set is the range of its one coordinate … -/
def idxEquiv1 {n : Nat} : (⟨1, ![n]⟩ : Shape).Idx ≃ Fin n where
  toFun j := j 0
  invFun a := ix1 a
  left_inv j := (eq_ix1 j).symm
  right_inv _ := rfl

/-- … so a sum over it, of a function of the coordinate's value, is the sum over the naturals below the extent. -/
theorem sum_idx1_range {M : Type*} [AddCommMonoid M] {n : Nat} (g : ℕ → M) :
    ∑ j : (⟨1, ![n]⟩ : Shape).Idx, g (j 0).val = ∑ s ∈ Finset.range n, g s := by
  rw [← Fin.sum_univ_eq_sum_range g n]
  exact Fintype.sum_equiv idxEquiv1 _ _ (fun _ => rfl)

/-- Position `4·s + q` of an input, for run `s` and offset `q` inside the run, is inside the array. -/
theorem pos_lt {s q : ℕ} (hs : s < 8388608) (hq : q < 4) : 4 * s + q < 33554432 := by omega

/-- The reshaped product at run `j`, offset `k`, is the product of the inputs at position `4·j + k`. -/
theorem val_main_v1_at (x0 x1 : S33554432.Idx → EReal) (j : S8388608.Idx) (k : Fin 4) :
    Read.val_main_v1 (F := Ideal) x0 x1 (Read.idx_main_v2 j k) = prodAt x0 x1 (4 * (j 0).val + k.val) := by
  have hlt : 4 * (j 0).val + k.val < 33554432 := pos_lt (j 0).isLt k.isLt
  have hidx : Read.idx_main_v1 (Read.idx_main_v2 j k) = ix1 ⟨4 * (j 0).val + k.val, hlt⟩ := by
    funext a
    match a with
    | ⟨0, _⟩ =>
      refine Fin.ext ?_
      show (j 0).val * 4 + k.val = 4 * (j 0).val + k.val
      rw [Nat.mul_comm]
  rw [Read.val_main_v1_apply, Read.val_main_v0_apply, hidx, Ideal.mulf_def]
  unfold prodAt flat
  rw [dif_pos hlt, dif_pos hlt]

/-- The inner product of run `j`, as the reference sums it: the zero word plus the four products of the run. -/
theorem val_main_v2_at (x0 x1 : S33554432.Idx → EReal) (j : S8388608.Idx) :
    Read.val_main_v2 (F := Ideal) x0 x1 j = zeroW + seg (prodAt x0 x1) (j 0).val := by
  rw [Read.val_main_v2_apply, Read.val_main_cst_apply, Ideal.ofBits_def]
  unfold seg
  rw [← Fin.sum_univ_eq_sum_range (fun q => prodAt x0 x1 (4 * (j 0).val + q)) 4]
  exact congrArg (zeroW + ·) (Finset.sum_congr rfl fun k _ => val_main_v1_at x0 x1 j k)

/-- The absolute deviation the reference computes for run `j`. -/
theorem val_main_v6_at (x0 x1 : S33554432.Idx → EReal) (j : S8388608.Idx) :
    Read.val_main_v6 (F := Ideal) x0 x1 j = dev (zeroW + seg (prodAt x0 x1) (j 0).val) := by
  rw [Read.val_main_v6_apply, Read.val_main_v5_apply, Read.val_main_v3_apply, Read.val_main_v4_apply,
    Read.val_main_cst_0_apply, val_main_v2_at, Ideal.hostAbsf_def, Ideal.absf_def, Ideal.subf_def, Ideal.mulf_def,
    Ideal.ofBits_def]
  rfl

theorem val_main_v8_eq_refVal (x0 x1 : S33554432.Idx → EReal) (i : S_.Idx) :
    Read.val_main_v8 (F := Ideal) x0 x1 i = refVal (prodAt x0 x1) := by
  rw [Read.val_main_v8_apply, Read.val_main_cst_2_apply, Read.val_main_v7_apply, Read.val_main_cst_1_apply,
    Ideal.hostDivf_def, Ideal.ofBits_def, Ideal.ofBits_def]
  unfold refVal
  rw [← sum_idx1_range (n := 8388608) (fun s => dev (zeroW + seg (prodAt x0 x1) s))]
  exact congrArg (fun t => Ideal.div (zeroW + t) (Ideal.ofBits .f32 0x4B000000#32))
    (Finset.sum_congr rfl fun j _ => val_main_v6_at x0 x1 j)

end Cert.ReferenceIdeal.RefValue

end
-- ==== Proof.Payload.lean ====
/-
  The body's three stored values, read at an index over the extended reals.

  The first is the zero word everywhere.  The second is the accumulator's old value plus the tile's contribution:
  the two loaded blocks multiplied entry by entry, that product times the grouping matrix, the deviation of every
  entry of the result, summed along each row and then down the column of row sums.  The third copies the
  accumulator's one entry to every position of the output block.
-/
import proofs.«115364_j59270548684945_1_alg».proof.Proof.Spec
import proofs.«115364_j59270548684945_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Cert.KernelIdeal Cert.KernelIdeal.Gen Cert.Geodesic ValueIdx

/-! ## The matrix product at an entry

The product contracts the left operand's columns against the right operand's rows.  At result entry (r, l) and
contraction position k the left operand is read at (r, k) and the right at (k, l): one fact per operand axis. -/

/-- The left operand's row is the result's row. -/
theorem lhs_row (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- The left operand's column is the contraction position. -/
theorem lhs_col (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q

/-- The right operand's row is the contraction position. -/
theorem rhs_row (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q

/-- The right operand's column is the result's column. -/
theorem rhs_col (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The product into the zero accumulator, at entry (r, l): the sum over k of left (r, k) times right (k, l). -/
theorem matmul_entry (A : FVec Ideal S8192x128 .f32) (B : FVec Ideal S128x128 .f32) (r : Fin 8192) (l : Fin 128) :
    matmul dot_S8192x128_S128x128_S8192x128_1_0_0_1_n_n none A B (constant (F := Ideal) S8192x128 .f32 0x00000000#32) (ix2 r l)
      = ∑ k : Fin 128, A (ix2 r k) * B (ix2 k l) := by
  refine (Ideal.matmul_constant_zero_apply dot_S8192x128_S128x128_S8192x128_1_0_0_1_n_n none A B (ix2 r l)).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 r l)
      ((ValueIdx.contrEquiv1 dot_S8192x128_S128x128_S8192x128_1_0_0_1_n_n 128 rfl rfl).symm k) = ix2 r k :=
    funext fun a => Fin.ext (by
      match a with
      | ⟨0, _⟩ => exact lhs_row _ _
      | ⟨1, _⟩ => exact (lhs_col _ _).trans hk)
  have er : dot_S8192x128_S128x128_S8192x128_1_0_0_1_n_n.rhsIdx (ix2 r l)
      ((ValueIdx.contrEquiv1 dot_S8192x128_S128x128_S8192x128_1_0_0_1_n_n 128 rfl rfl).symm k) = ix2 k l :=
    funext fun a => Fin.ext (by
      match a with
      | ⟨0, _⟩ => exact (rhs_row _ _).trans hk
      | ⟨1, _⟩ => exact rhs_col _ _)
  rw [el, er]

/-! ## The two sums and the cast between them -/

/-- The sum along the second axis, at row r: the 128 entries of that row. -/
theorem rowSum_apply (src : FVec Ideal S8192x128 .f32) (r : Fin 8192) :
    multiReduction (F := Ideal) .add [1] S8192 src 0x00000000#32 reduces_S8192x128_S8192 (.inl rfl) rfl (ix1 r)
      = ∑ l : Fin 128, src (ix2 r l) := by
  refine (Ideal.multiReduction_add_single src 0x00000000#32 reduces_S8192x128_S8192 (.inl rfl) rfl (ix1 r)).trans ?_
  refine Finset.sum_congr rfl fun l _ => congrArg src (funext fun a => ?_)
  match a with
  | ⟨0, _⟩ => rfl
  | ⟨1, _⟩ => rfl

/-- A vector of 8192 entries viewed as one column reads, at (r, c), entry r. -/
theorem colCast_apply (x : FVec Ideal S8192 .f32) (r : Fin 8192) (c : Fin 1) :
    shapeCast S8192x1 x shapeCasts_S8192_S8192x1 (ix2 r c) = x (ix1 r) :=
  shapeCast_apply x _ _ _ (by
    rw [Shape.rowMajor_val_one, Shape.rowMajor_val_two]
    show r.val = r.val * 1 + c.val
    have := c.isLt
    omega)

/-- The sum down the first axis of one column, at its one position c: the 8192 entries of the column. -/
theorem colSum_apply (src : FVec Ideal S8192x1 .f32) (c : Fin 1) :
    multiReduction (F := Ideal) .add [0] S1 src 0x00000000#32 reduces_S8192x1_S1 (.inl rfl) rfl (ix1 c)
      = ∑ r : Fin 8192, src (ix2 r c) := by
  refine (Ideal.multiReduction_add_single src 0x00000000#32 reduces_S8192x1_S1 (.inl rfl) rfl (ix1 c)).trans ?_
  refine Finset.sum_congr rfl fun r _ => congrArg src (funext fun a => ?_)
  match a with
  | ⟨0, _⟩ => rfl
  | ⟨1, _⟩ => rfl

/-! ## The three stored values -/

theorem pay1_apply (i : S1x1.Idx) : k0_pay1 (F := Ideal) i = zeroW := by
  unfold k0_pay1
  rw [shapeCast_self]
  rfl

theorem pay2_apply (x0 x1 : Vec Ideal S8192x128 .f32) (x2 : Vec Ideal S128x128 .f32) (xs : Vec Ideal S1x1 .f32)
    (i : S1x1.Idx) :
    k0_pay2 (F := Ideal) x0 x1 x2 xs i
      = xs i + ∑ r : Fin 8192, ∑ l : Fin 128,
          dev (∑ k : Fin 128, x0 (ix2 r k) * x1 (ix2 r k) * x2 (ix2 k l)) := by
  obtain ⟨p, q, rfl⟩ : ∃ (p : Fin 1) (q : Fin 1), i = ix2 p q := ⟨i 0, i 1, eq_ix2 i⟩
  unfold k0_pay2
  rw [shapeCast_self, addf_apply, shapeCast_a_1a_apply, colSum_apply]
  refine congrArg (xs (ix2 p q) + ·) (Finset.sum_congr rfl fun r _ => ?_)
  rw [colCast_apply, rowSum_apply]
  refine Finset.sum_congr rfl fun l _ => ?_
  show dev (matmul dot_S8192x128_S128x128_S8192x128_1_0_0_1_n_n none
      (mulf (shapeCast S8192x128 x0 shapeCasts_S8192x128_S8192x128) (shapeCast S8192x128 x1 shapeCasts_S8192x128_S8192x128))
      (shapeCast S128x128 x2 shapeCasts_S128x128_S128x128)
      (constant (F := Ideal) S8192x128 .f32 0x00000000#32) (ix2 r l)) = _
  rw [matmul_entry, shapeCast_self, shapeCast_self, shapeCast_self]
  rfl

theorem pay3_apply (v : Vec Ideal S1x1 .f32) (j : S1x8x128.Idx) :
    k0_pay3 (F := Ideal) v j = v (ix2 (0 : Fin 1) (0 : Fin 1)) := by
  unfold k0_pay3
  refine (broadcastTo_apply (shapeCast S1x1x1 v shapeCasts_S1x1_S1x1x1) broadcasts_S1x1x1_S1x8x128 j
    (ix3 (0 : Fin 1) (0 : Fin 1) (0 : Fin 1)) fun a => ?_).trans (shapeCast_ab_1ab_apply v _ 0 0 0)
  match a with
  | ⟨0, _⟩ => rfl
  | ⟨1, _⟩ => rfl
  | ⟨2, _⟩ => rfl

end Cert.KernelIdeal.Payload

end
-- ==== Proof.HostPrefix.lean ====
/-
  The three arrays the region finds, as the host lines before it leave them: the two inputs viewed as
  262144 rows of 128, and the grouping matrix.
-/
import proofs.«115364_j59270548684945_1_alg».proof.Proof.Spec
import proofs.«115364_j59270548684945_1_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.HostPrefix

open Idealize.ShloMosaic Idealize.ShloMosaic.TcCoe Idealize.SL.Sem Cert.KernelIdeal Cert.KernelIdeal.Gen Cert.Geodesic ValueIdx

variable (m : (ℓ : Loc nD τ sig) → Buf (Elt Ideal) ℓ)

/-! ## The two inputs as rows of 128 -/

/-- Position `128·row + k` lies inside an input array. -/
theorem pos_lt (row : Fin 262144) (k : Fin 128) : 128 * row.val + k.val < 33554432 := by
  have h0 := row.isLt; have h1 := k.isLt; omega

/-- A flat array of 33 554 432 entries viewed as 262 144 rows of 128 reads, at row `row` and column `k`, the flat
    array at position `128·row + k`: both indices have that row-major rank. -/
theorem rows_apply (x : S33554432.Idx → EReal) (row : Fin 262144) (k : Fin 128) :
    shapeCast S262144x128 x shapeCasts_S33554432_S262144x128 (ix2 row k) = flat x (128 * row.val + k.val) := by
  rw [shapeCast_apply x shapeCasts_S33554432_S262144x128 (ix2 row k) (ix1 ⟨128 * row.val + k.val, pos_lt row k⟩)
    (by rewrite [Shape.rowMajor_val_one, Shape.rowMajor_val_two]
        show 128 * row.val + k.val = row.val * 128 + k.val
        omega)]
  unfold flat
  rw [dif_pos (pos_lt row k)]

/-- The first input's view is the reshape of the first argument: no other host line writes it. -/
theorem V_main_v0_eq (c : Dev nD) :
    (V m c main_v0 : S262144x128.Idx → EReal)
      = shapeCast S262144x128 (m ((c : Thread nD τ).loc main_arg0) : S33554432.Idx → EReal) shapeCasts_S33554432_S262144x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Likewise the second input's view and the second argument. -/
theorem V_main_v1_eq (c : Dev nD) :
    (V m c main_v1 : S262144x128.Idx → EReal)
      = shapeCast S262144x128 (m ((c : Thread nD τ).loc main_arg1) : S33554432.Idx → EReal) shapeCasts_S33554432_S262144x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem V_main_v0_apply (c : Dev nD) (row : Fin 262144) (k : Fin 128) :
    (V m c main_v0 : S262144x128.Idx → EReal) (ix2 row k)
      = flat (m ((c : Thread nD τ).loc main_arg0)) (128 * row.val + k.val) := by
  rw [V_main_v0_eq m c]
  exact rows_apply _ row k

theorem V_main_v1_apply (c : Dev nD) (row : Fin 262144) (k : Fin 128) :
    (V m c main_v1 : S262144x128.Idx → EReal) (ix2 row k)
      = flat (m ((c : Thread nD τ).loc main_arg1)) (128 * row.val + k.val) := by
  rw [V_main_v1_eq m c]
  exact rows_apply _ row k

/-! ## The grouping matrix -/

/-- Floor division of an array of 32-bit words by the word 4, spelled as the program spells it: the quotient
    truncated toward zero, less one wherever the remainder is nonzero and dividend and divisor differ in sign. -/
def floorDiv4 {s : Shape} (hb : S_.BroadcastsInDim s ![]) (x : IVec s 32) : IVec s 32 :=
  select
    (andi
      (cmpi .ne (signi x) (broadcastInDim s ![] hb (signi (constantI S_ 32 4#32))))
      (cmpi .ne (Host.remsi x (broadcastInDim s ![] hb (constantI S_ 32 4#32))) (broadcastInDim s ![] hb (constantI S_ 32 0#32))))
    (subi (Host.divsi x (broadcastInDim s ![] hb (constantI S_ 32 4#32))) (broadcastInDim s ![] hb (constantI S_ 32 1#32)))
    (Host.divsi x (broadcastInDim s ![] hb (constantI S_ 32 4#32)))

/-- The positions 0 … 127 as a column, and as a row. -/
abbrev colIota : IVec S128x1 32 := broadcastInDim S128x1 ![0] bcast_S128_S128x1_0 (iotaInDim S128 32 0)
abbrev rowIota : IVec S1x128 32 := broadcastInDim S1x128 ![1] bcast_S128_S1x128_1 (iotaInDim S128 32 0)

/-- The matrix is the comparison, read as the floats zero and one, of the column of floor quotients laid along the
    rows with the row of floor quotients laid down the columns. -/
theorem V_main_v10_eq (c : Dev nD) :
    (V m c main_v10 : S128x128.Idx → EReal)
      = uitofp (F := Ideal) .f32 (cmpi .eq
          (broadcastInDim S128x128 ![0, 1] bcast_S128x1_S128x128_0_1 (floorDiv4 bcast_S_S128x1 colIota))
          (broadcastInDim S128x128 ![0, 1] bcast_S1x128_S128x128_0_1 (floorDiv4 bcast_S_S1x128 rowIota))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- For a position `k` below 128 the floor quotient by 4 is the word of `k / 4`: the 128 cases, each computed. -/
theorem col_word : ∀ k : Fin 128, floorDiv4 bcast_S_S128x1 colIota (StableHlo.Predicate.ixP k) = BitVec.ofNat 32 (k.val / 4) := by
  decide +kernel
theorem row_word : ∀ l : Fin 128, floorDiv4 bcast_S_S1x128 rowIota (StableHlo.Predicate.i1q l) = BitVec.ofNat 32 (l.val / 4) := by
  decide +kernel

/-- Two naturals below 128 with the same 32-bit word are equal. -/
theorem ofNat_inj_small {a b : ℕ} (ha : a < 128) (hb : b < 128) (h : BitVec.ofNat 32 a = BitVec.ofNat 32 b) : a = b := by
  have := congrArg BitVec.toNat h
  simp only [BitVec.toNat_ofNat] at this
  omega

theorem V_main_v10_apply (c : Dev nD) (k l : Fin 128) :
    (V m c main_v10 : S128x128.Idx → EReal) (ix2 k l) = gmat k.val l.val := by
  rw [V_main_v10_eq m c]
  have hij : (ix2 k l : S128x128.Idx) = StableHlo.Predicate.ij k l := by
    funext d; match d with | ⟨0, _⟩ => rfl | ⟨1, _⟩ => rfl
  rw [hij]
  show FloatOps.uitofp (F := Ideal) .f32 (IntOp.cmpi .eq
      (broadcastInDim S128x128 ![0, 1] bcast_S128x1_S128x128_0_1 (floorDiv4 bcast_S_S128x1 colIota) (StableHlo.Predicate.ij k l))
      (broadcastInDim S128x128 ![0, 1] bcast_S1x128_S128x128_0_1 (floorDiv4 bcast_S_S1x128 rowIota) (StableHlo.Predicate.ij k l))) = _
  rw [StableHlo.Predicate.bcast_of_col, StableHlo.Predicate.bcast_of_row, col_word, row_word]
  unfold gmat
  have hk := k.isLt
  have hl := l.isLt
  by_cases h : k.val / 4 = l.val / 4
  · rw [if_pos h, h, (StableHlo.Predicate.cmpi_eq_iff).2 rfl]
    show (((1#1 : BitVec 1).toNat : ℝ) : EReal) = 1
    simp
  · have hz : IntOp.cmpi .eq (BitVec.ofNat 32 (k.val / 4)) (BitVec.ofNat 32 (l.val / 4)) = 0#1 :=
      eq_zero_of_ne_one fun h1 => h (ofNat_inj_small (by omega) (by omega) ((StableHlo.Predicate.cmpi_eq_iff).1 h1))
    rw [if_neg h, hz]
    show (((0#1 : BitVec 1).toNat : ℝ) : EReal) = 0
    simp

end Cert.KernelIdeal.HostPrefix

end
-- ==== Proof.Pieces.lean ====
/-
  What each control case of the body leaves behind, as values: the scratch accumulator after a point is the
  tile's sum added to what it held before (to the zero it was reset to, at a core's first tile), and at a core's
  last tile the output block is that accumulator, broadcast.
-/
import proofs.«115364_j59270548684945_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator, holding `xs0`, ends at the tile's sum added to `xs0`. -/
theorem scratch_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : ¬cond0_1 i)
    (x0 x1 : Vec F S8192x128 .f32) (x2 : Vec F S128x128 .f32) (xs0 : Vec F S1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S8192x128) hz2, View.ld_unit_zero (S := S128x128) hz2, View.ld_unit_zero (S := S1x1) hz2]

/-- A core's first tile: the accumulator is reset to zero, read back, and ends at the tile's sum added to that zero. -/
theorem scratch_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S1x1 .f32) (harg6 : arg6.IsWhole) (hc0 : cond0_0 i) (hc1 : ¬cond0_1 i)
    (x0 x1 : Vec F S8192x128 .f32) (x2 : Vec F S128x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg6.read_unread,
    View.readCov_unit_zero (S := S1x1) _ hz2,
    View.ld_unit_zero (S := S8192x128) hz2, View.ld_unit_zero (S := S128x128) hz2, View.ld_unit_zero (S := S1x1) hz2]

/-- A core's last tile: the accumulator as at a middle tile, -/
theorem scratch_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : cond0_1 i)
    (x0 x1 : Vec F S8192x128 .f32) (x2 : Vec F S128x128 .f32) (xs0 : Vec F S1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S8192x128) hz2, View.ld_unit_zero (S := S128x128) hz2, View.ld_unit_zero (S := S1x1) hz2]

/-- and the output block is that final accumulator, read back and broadcast over the block. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : cond0_1 i)
    (x0 x1 : Vec F S8192x128 .f32) (x2 : Vec F S128x128 .f32) (xs0 : Vec F S1x1 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.readCov_unit_zero (S := S1x1) _ hz2,
    View.ld_unit_zero (S := S8192x128) hz2, View.ld_unit_zero (S := S128x128) hz2, View.ld_unit_zero (S := S1x1) hz2]

end Cert.KernelIdeal.Pieces

end
-- ==== Proof.Chain.lean ====
/-
  The kernel's run, read as values over the extended reals: tile by tile the scratch accumulator holds the
  running sum of the tiles' deviations on its core, the output array ends at each core's total, and the host
  lines after the call add the two totals and divide.
-/
import proofs.«115364_j59270548684945_1_alg».proof.Proof.Spec
import proofs.«115364_j59270548684945_1_alg».proof.Proof.Payload
import proofs.«115364_j59270548684945_1_alg».proof.Proof.HostPrefix
import proofs.«115364_j59270548684945_1_alg».proof.Proof.Pieces
import proofs.«115364_j59270548684945_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen Cert.Geodesic ValueIdx

variable (m : (ℓ : Loc nD τ sig) → Buf (Elt Ideal) ℓ) (ρ : Dev nD → PrngReg)

/-- The products of the two inputs, by position. -/
abbrev prods (c : Dev nD) : ℕ → EReal :=
  prodAt (m ((c : Thread nD τ).loc main_arg0)) (m ((c : Thread nD τ).loc main_arg1))

/-- The three input blocks of a tile, at their literal types. -/
abbrev blk0 (c : Dev nD) (t : Fin cfg0.N) : Vec Ideal S8192x128 .f32 := iblk m c 0 t
abbrev blk1 (c : Dev nD) (t : Fin cfg0.N) : Vec Ideal S8192x128 .f32 := iblk m c 1 t
abbrev blk2 (c : Dev nD) (t : Fin cfg0.N) : Vec Ideal S128x128 .f32 := iblk m c 2 t

/-- Tile `t` starts at row `8192·t` of both inputs, and every tile sees the whole grouping matrix. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem blk0_apply (c : Dev nD) (t : Fin cfg0.N) (r : Fin 8192) (k : Fin 128) :
    blk0 m c t (ix2 r k) = flat (m ((c : Thread nD τ).loc main_arg0)) (128 * (8192 * t.val + r.val) + k.val) := by
  have hN : t.val < 32 := lt_of_lt_of_eq t.isLt (show cfg0.N = 32 from N_0)
  rw [← HostPrefix.V_main_v0_apply m c ⟨8192 * t.val + r.val, by have := r.isLt; omega⟩ k]
  obtain ⟨e0, e1, -, -, -, -⟩ := idx_facts t
  show (iblk m c 0 t) (ix2 r k) = _
  unfold iblk
  rw [View.read_apply]
  show V m c main_v0 _ = V m c main_v0 _
  congr 1
  funext a
  apply Fin.ext
  match a with
  | ⟨0, _⟩ => show win0_0.index t (0 : Fin 2) * 8192 + 1 * r.val = 8192 * t.val + r.val; omega
  | ⟨1, _⟩ => show win0_0.index t (1 : Fin 2) * 128 + 1 * k.val = k.val; omega

theorem blk1_apply (c : Dev nD) (t : Fin cfg0.N) (r : Fin 8192) (k : Fin 128) :
    blk1 m c t (ix2 r k) = flat (m ((c : Thread nD τ).loc main_arg1)) (128 * (8192 * t.val + r.val) + k.val) := by
  have hN : t.val < 32 := lt_of_lt_of_eq t.isLt (show cfg0.N = 32 from N_0)
  rw [← HostPrefix.V_main_v1_apply m c ⟨8192 * t.val + r.val, by have := r.isLt; omega⟩ k]
  obtain ⟨-, -, e0, e1, -, -⟩ := idx_facts t
  show (iblk m c 1 t) (ix2 r k) = _
  unfold iblk
  rw [View.read_apply]
  show V m c main_v1 _ = V m c main_v1 _
  congr 1
  funext a
  apply Fin.ext
  match a with
  | ⟨0, _⟩ => show win0_1.index t (0 : Fin 2) * 8192 + 1 * r.val = 8192 * t.val + r.val; omega
  | ⟨1, _⟩ => show win0_1.index t (1 : Fin 2) * 128 + 1 * k.val = k.val; omega

theorem blk2_apply (c : Dev nD) (t : Fin cfg0.N) (k l : Fin 128) :
    blk2 m c t (ix2 k l) = gmat k.val l.val := by
  rw [← HostPrefix.V_main_v10_apply m c k l]
  obtain ⟨-, -, -, -, e0, e1⟩ := idx_facts t
  show (iblk m c 2 t) (ix2 k l) = _
  unfold iblk
  rw [View.read_apply]
  show V m c main_v10 _ = V m c main_v10 _
  congr 1
  funext a
  apply Fin.ext
  match a with
  | ⟨0, _⟩ => show win0_2.index t (0 : Fin 2) * 128 + 1 * k.val = k.val; omega
  | ⟨1, _⟩ => show win0_2.index t (1 : Fin 2) * 128 + 1 * l.val = l.val; omega

/-- One tile's stored accumulator: what the accumulator held plus the tile's sum of deviations. -/
theorem tile_eq (c : Dev nD) (t : Fin cfg0.N) (xs : Vec Ideal S1x1 .f32) (i : S1x1.Idx) :
    k0_pay2 (F := Ideal) (blk0 m c t) (blk1 m c t) (blk2 m c t) xs i = xs i + tileSum (prods m c) t.val := by
  rw [Payload.pay2_apply]
  refine congrArg (xs i + ·) ?_
  unfold tileSum
  rw [← Fin.sum_univ_eq_sum_range (fun r => ∑ l ∈ Finset.range 128, dev (rowDot (prods m c) (8192 * t.val + r) l)) 8192]
  refine Finset.sum_congr rfl fun r _ => ?_
  rw [← Fin.sum_univ_eq_sum_range (fun l => dev (rowDot (prods m c) (8192 * t.val + r.val) l)) 128]
  refine Finset.sum_congr rfl fun l _ => ?_
  refine congrArg dev ?_
  unfold rowDot
  rw [← Fin.sum_univ_eq_sum_range (fun k => prods m c (128 * (8192 * t.val + r.val) + k) * gmat k l.val) 128]
  refine Finset.sum_congr rfl fun k _ => ?_
  rw [blk0_apply, blk1_apply, blk2_apply]
  rfl

/-! ## The accumulator, point by point -/

/-- At a core's first tile the scratch ends at the zero it was reset to plus the tile's sum. -/
theorem scratch_first (c : Dev nD) (t : Fin cfg0.N) (h0 : t.val % 16 = 0) :
    (outsAt0 m c t.val t.isLt).2 = fun _ => acc (prods m c) (t.val / 16) (t.val % 16) := by
  have hN : t.val < 32 := lt_of_lt_of_eq t.isLt (show cfg0.N = 32 from N_0)
  have h1 : ¬t.val % 16 = 15 := by omega
  rw [outsAt0_A m c t h0 h1]
  dsimp only
  refine (Pieces.scratch_A (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (blk0 m c t) (blk1 m c t) (blk2 m c t)).trans ?_
  funext i
  rw [tile_eq, Payload.pay1_apply, h0]
  show zeroW + tileSum (prods m c) t.val = zeroW + tileSum (prods m c) (16 * (t.val / 16))
  rw [show 16 * (t.val / 16) = t.val by omega]

/-- At every later tile of a core it ends at what the tile before left plus the tile's sum. -/
theorem scratch_next (c : Dev nD) (n : ℕ) (hn : n + 1 < cfg0.N) (h0 : ¬(n + 1) % 16 = 0)
    (ih : (outsAt0 m c n (Nat.lt_of_succ_lt hn)).2 = fun _ => acc (prods m c) (n / 16) (n % 16)) :
    (outsAt0 m c (n + 1) hn).2 = fun _ => acc (prods m c) ((n + 1) / 16) ((n + 1) % 16) := by
  have hN : n + 1 < 32 := lt_of_lt_of_eq hn (show cfg0.N = 32 from N_0)
  have key : ∀ i : S1x1.Idx, (outsAt0 m c n (Nat.lt_of_succ_lt hn)).2 i + tileSum (prods m c) (n + 1)
      = acc (prods m c) ((n + 1) / 16) ((n + 1) % 16) := by
    intro i
    rw [ih]
    obtain ⟨k, hk⟩ : ∃ k, (n + 1) % 16 = k + 1 := ⟨(n + 1) % 16 - 1, by omega⟩
    rw [hk, show (n + 1) / 16 = n / 16 by omega]
    show acc (prods m c) (n / 16) (n % 16) + _ = acc (prods m c) (n / 16) k + tileSum (prods m c) (16 * (n / 16) + (k + 1))
    rw [show n % 16 = k by omega, show 16 * (n / 16) + (k + 1) = n + 1 by omega]
  by_cases h1 : (n + 1) % 16 = 15
  · rw [outsAt0_C m c ⟨n + 1, hn⟩ h0 h1]
    dsimp only
    refine (Pieces.scratch_C (F := Ideal) c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) scM0_0 (Memref.isWhole_whole _)
      (fun h => h0 ((hcond0_0 ⟨n + 1, hn⟩).mp h)) ((hcond0_1 ⟨n + 1, hn⟩).mpr h1)
      (blk0 m c ⟨n + 1, hn⟩) (blk1 m c ⟨n + 1, hn⟩) (blk2 m c ⟨n + 1, hn⟩) (outsAt0 m c n (Nat.lt_of_succ_lt hn)).2).trans ?_
    funext i
    rw [tile_eq]
    exact key i
  · rw [outsAt0_B m c ⟨n + 1, hn⟩ h0 h1]
    dsimp only
    refine (Pieces.scratch_B (F := Ideal) c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) scM0_0 (Memref.isWhole_whole _)
      (fun h => h0 ((hcond0_0 ⟨n + 1, hn⟩).mp h)) (fun h => h1 ((hcond0_1 ⟨n + 1, hn⟩).mp h))
      (blk0 m c ⟨n + 1, hn⟩) (blk1 m c ⟨n + 1, hn⟩) (blk2 m c ⟨n + 1, hn⟩) (outsAt0 m c n (Nat.lt_of_succ_lt hn)).2).trans ?_
    funext i
    rw [tile_eq]
    exact key i

/-- So after point `n` the scratch holds core `n / 16`'s accumulator after its tile `n % 16`. -/
theorem scratch_eq (c : Dev nD) : ∀ (n : ℕ) (h : n < cfg0.N),
    (outsAt0 m c n h).2 = fun _ => acc (prods m c) (n / 16) (n % 16) := by
  intro n
  induction n with
  | zero => intro h; exact scratch_first m c ⟨0, h⟩ rfl
  | succ n ih =>
    intro h
    by_cases h0 : (n + 1) % 16 = 0
    · exact scratch_first m c ⟨n + 1, h⟩ h0
    · exact scratch_next m c n h h0 (ih (Nat.lt_of_succ_lt h))

/-! ## The output array -/

/-- The output array after the run: every entry of plane `c'` is core `c'`'s total over its sixteen tiles. -/
abbrev totals (c : Dev nD) : S2x8x128.Idx → EReal :=
  fun j => acc (prods m c) (j (0 : Fin 3)).val 15

/-- Tile `t` belongs to core `t / 16`, whose plane its output block is. -/
theorem idx_facts3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- What a core's last tile writes back is its plane of the totals. -/
theorem flushed_eq (c : Dev nD) (t : Fin cfg0.N) (hf : (cfg0.win 3).flush t = true) :
    (dats m 0 c).flushed 3 t = ((cfg0.win 3).blk t).view.read (Elt Ideal) (totals m c) := by
  have hN : t.val < 32 := lt_of_lt_of_eq t.isLt (show cfg0.N = 32 from N_0)
  have h1 : t.val % 16 = 15 := (flush0_3 t).mp hf
  have h0 : ¬t.val % 16 = 0 := by omega
  have hs : k0_pay2 (F := Ideal) (blk0 m c t) (blk1 m c t) (blk2 m c t)
      (outsAt0 m c (t.val - 1) (Nat.lt_of_le_of_lt (Nat.sub_le _ _) t.isLt)).2
      = fun _ => acc (prods m c) (t.val / 16) (t.val % 16) := by
    have e := scratch_eq m c t.val t.isLt
    rw [outsAt0_C m c t h0 h1] at e
    dsimp only at e
    refine (Pieces.scratch_C (F := Ideal) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) ((hcond0_1 t).mpr h1)
      (blk0 m c t) (blk1 m c t) (blk2 m c t) (outsAt0 m c (t.val - 1) (Nat.lt_of_le_of_lt (Nat.sub_le _ _) t.isLt)).2).symm.trans ?_
    exact e
  show (cfg0.win 3).cut (grid0.coords t) ((dats m 0 c).after 3 t) = _
  rw [after0_3, outsAt0_C m c t h0 h1]
  dsimp only
  rw [Pieces.out_C (F := Ideal) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) ((hcond0_1 t).mpr h1)
      (blk0 m c t) (blk1 m c t) (blk2 m c t) (outsAt0 m c (t.val - 1) (Nat.lt_of_le_of_lt (Nat.sub_le _ _) t.isLt)).2, hs]
  obtain ⟨e0, e1, e2⟩ := idx_facts3 t
  funext y
  show k0_pay3 (F := Ideal) (fun _ => acc (prods m c) (t.val / 16) (t.val % 16)) y
    = totals m c (((cfg0.win 3).blk t).view.emb y)
  rw [Payload.pay3_apply, h1]
  refine congrArg (fun n => acc (prods m c) n 15) ?_
  show t.val / 16 = win0_3.index t (0 : Fin 3) * 1 + 1 * (y 0).val
  have hy : (y 0).val < 1 := (y 0).isLt
  omega

/-- Every entry of the output array lies in the block its core's last tile writes back. -/
theorem covered (c : Dev nD) (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hlt : 16 * (i 0).val + 15 < cfg0.N := by rw [show cfg0.N = 32 from N_0]; omega
  refine ⟨⟨16 * (i 0).val + 15, hlt⟩, (flush0_3 _).mpr (by dsimp only; omega), ?_⟩
  obtain ⟨e0, e1, e2⟩ := idx_facts3 ⟨16 * (i 0).val + 15, hlt⟩
  have e0' : win0_3.index ⟨16 * (i 0).val + 15, hlt⟩ (0 : Fin 3) = (i 0).val := by rw [e0]; dsimp only; omega
  show i ∈ ((View.whole main_v11).slice (win0_3.rect ⟨16 * (i 0).val + 15, hlt⟩)).set
  rw [View.set_slice_whole, Rect.mem_set_unit]
  intro a
  match a with
  | ⟨0, _⟩ =>
    show win0_3.index ⟨16 * (i 0).val + 15, hlt⟩ (0 : Fin 3) * 1 ≤ (i 0).val
      ∧ (i 0).val < win0_3.index ⟨16 * (i 0).val + 15, hlt⟩ (0 : Fin 3) * 1 + 1
    omega
  | ⟨1, _⟩ =>
    show win0_3.index ⟨16 * (i 0).val + 15, hlt⟩ (1 : Fin 3) * 8 ≤ (i 1).val
      ∧ (i 1).val < win0_3.index ⟨16 * (i 0).val + 15, hlt⟩ (1 : Fin 3) * 8 + 8
    omega
  | ⟨2, _⟩ =>
    show win0_3.index ⟨16 * (i 0).val + 15, hlt⟩ (2 : Fin 3) * 128 ≤ (i 2).val
      ∧ (i 2).val < win0_3.index ⟨16 * (i 0).val + 15, hlt⟩ (2 : Fin 3) * 128 + 128
    omega

/-- So the output array ends at the two cores' totals. -/
theorem final_out (c : Dev nD) : (dats m 0 c).arrAt 3 cfg0.N = totals m c :=
  (dats m 0 c).arrAt_eq_of_cover 3 (totals m c) (flushed_eq m c) (covered c)

/-! ## The host lines after the call -/

/-- The host picks entry `(c', 0, 0)` of each plane: the slice of the leading corner, flattened to two entries. -/
theorem picked_apply (X : S2x8x128.Idx → EReal) (k : Fin 2) :
    shapeCast S2 (extractStridedSlice (s := S2x8x128) S2x1x1 ![0, 0, 0] X slices_S2x8x128_S2x1x1_0_0_0) shapeCasts_S2x1x1_S2 (ix1 k)
      = X (ix3 k (0 : Fin 8) (0 : Fin 128)) := by
  rw [shapeCast_apply _ shapeCasts_S2x1x1_S2 (ix1 k) (ix3 k (0 : Fin 1) (0 : Fin 1))
    (by rw [Shape.rowMajor_val_three, Shape.rowMajor_val_one]; show (k.val * 1 + 0) * 1 + 0 = k.val; omega)]
  exact extractStridedSlice_apply _ X _ _ (ix3 k (0 : Fin 8) (0 : Fin 128)) (fun a => by
    match a with
    | ⟨0, _⟩ => show k.val = 0 + k.val; omega
    | ⟨1, _⟩ => rfl
    | ⟨2, _⟩ => rfl)

/-- The indices of a two-entry vector are its two positions. -/
def pairEquiv : S2.Idx ≃ Fin 2 where
  toFun j := j 0
  invFun k := ix1 k
  left_inv j := (eq_ix1 j).symm
  right_inv _ := rfl

/-- A sum over the indices of a two-entry vector is the sum of its two entries. -/
theorem sum_pair (f : S2.Idx → EReal) : ∑ j : S2.Idx, f j = f (ix1 (0 : Fin 2)) + f (ix1 (1 : Fin 2)) := by
  rw [Fintype.sum_equiv pairEquiv f (fun k => f (ix1 k)) (fun j => congrArg f (eq_ix1 j)), Fin.sum_univ_two]

theorem tail_eq (c : Dev nD) :
    Pipeline.afterTail₀ cfgs (dats m) 0 (V0 m) [hostOps1] c main_v15 = fun _ => kernelVal (prods m c) := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v11)
      = totals m c :=
    (Pipeline.withArrays_arr spec0 launch0.win.arr_inj c _ _ 3).trans (final_out m c)
  rw [hw]
  show Host.divf (F := Ideal) (Host.reduceAdd (F := Ideal) (shapeCast S2 (extractStridedSlice (s := S2x8x128) (α := EReal) S2x1x1 ![0, 0, 0] (totals m c) slices_S2x8x128_S2x1x1_0_0_0) shapeCasts_S2x1x1_S2)
      (constant (F := Ideal) S_ .f32 0x00000000#32) reducesTo_S2_S_d0 h_S_) (constant (F := Ideal) S_ .f32 0x4C000000#32) = _
  funext i
  simp only [Host.divf, Host.reduceAdd, Ideal.hostReduceAdd_def, Ideal.hostDivf_def]
  rw [Ideal.hostReduceAdd_total reducesTo_S2_S_d0 (fun b => b.elim0), sum_pair, picked_apply, picked_apply]
  rfl

/-! ## The run, read -/

/-- Every weakly fair execution of the idealized kernel program ends with its result at the mean deviation of the
    inputs it was launched with, and the inputs unchanged. -/
theorem run : θ_run defs (onTc (τ := τ) (main (F := Ideal))) ⟨m, fun _ => 0, ρ⟩ fun r => ∀ c : Dev nD,
      r.2.mem ((c.tc : Thread nD τ).loc main_v15) = (fun _ => kernelVal (prods m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v15 (Pipeline.mem_restRefs_of main_v15 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Chain

end
-- ==== Proof.lean ====
/-
  The certificate of the mean geodesic deviation kernel against its jnp reference.

  Over the extended reals both programs are one function of the two inputs (Proof/Spec.lean): the mean of
  `|s·s − 1|` over the inner products `s` of the runs of four consecutive products.  The reference computes it as
  written (Proof/RefValue.lean, over the generated run and its stage lemmas).  The kernel multiplies each row of 128
  products by the matrix that groups the lanes in fours, so every inner product appears four times, accumulates the
  deviations tile by tile in a one-word scratch on each of two cores (Proof/Payload.lean: the body's stored values;
  Proof/Pieces.lean: what each control case leaves; Proof/HostPrefix.lean: the arrays the host lines before the call
  build; Proof/Chain.lean: the induction over the grid, the output array, the host lines after the call), and divides
  the grand total by four times the number of runs.  Proof/SpecLaw.lean shows the two extended reals equal: the
  fourfold repetition against the fourfold divisor, with no appeal to finiteness.
  The frames of the two kernel programs are the generated ones; the reference's frame is its generated run.
  The ideal pass rewrote nothing, so the idealization claim is trivial.
-/
import proofs.«115364_j59270548684945_1_alg».proof.Defs
import proofs.«115364_j59270548684945_1_alg».proof.Proof.Gen.Kernel
import proofs.«115364_j59270548684945_1_alg».proof.Proof.Gen.Kernel.Frame
import proofs.«115364_j59270548684945_1_alg».proof.Proof.Gen.KernelIdeal
import proofs.«115364_j59270548684945_1_alg».proof.Proof.Gen.KernelIdeal.Frame
import proofs.«115364_j59270548684945_1_alg».proof.Proof.Gen.ReferenceIdeal
import proofs.«115364_j59270548684945_1_alg».proof.Proof.Gen.ReferenceIdeal.Run
import proofs.«115364_j59270548684945_1_alg».proof.Proof.Gen.ReferenceIdeal.Read
import proofs.«115364_j59270548684945_1_alg».proof.Proof.Gen.Pre_finite_inputs
import proofs.«115364_j59270548684945_1_alg».proof.Proof.Spec
import proofs.«115364_j59270548684945_1_alg».proof.Proof.SpecLaw
import proofs.«115364_j59270548684945_1_alg».proof.Proof.RefValue
import proofs.«115364_j59270548684945_1_alg».proof.Proof.Chain
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end at the mean deviation of inputs that agree: the kernel's run read as values, the reference's
    generated run read stage by stage, and the law that joins the two. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => fun _ => Cert.Geodesic.kernelVal (Cert.KernelIdeal.Chain.prods m c), Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  funext i
  rw [Cert.ReferenceIdeal.RefValue.val_main_v8_eq_refVal]
  exact (Cert.Geodesic.kernelVal_eq_refVal _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
